-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x65x512 : Shape := ⟨3, ![4, 65, 512]⟩
abbrev S1024x1024 : Shape := ⟨2, ![1024, 1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x65x512 : S_.BroadcastsInDim S4x65x512 (![] : Fin 0 → Fin S4x65x512.rank)
  reducesTo_S4x65x512_S_d0_1_2 : S4x65x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x256x512 .f32) (main_arg1 : FVec F S4x65x512 .f32) (main_arg2 : FVec F S1024x1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x65x512 .f32 := Host.absf main_arg1
  let main_cst_0 : FVec F S_ .f32 := constant S_ .f32 0x7F800000#32
  let main_v5 : FVec F S4x65x512 .f32 := broadcastInDim S4x65x512 ![] bcast_S_S4x65x512 main_cst_0
  let main_v6 : IVec S4x65x512 1 := cmpf .olt main_v4 main_v5
  let main_c_1 : IVec S_ 1 := constantI S_ 1 1#1
  let main_v7 : IVec S_ 1 := (fun x v => Host.reduce IntOp.andi x v reducesTo_S4x65x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x256x512 : Shape := ⟨3, ![4, 256, 512]⟩
abbrev S4x65x512 : Shape := ⟨3, ![4, 65, 512]⟩
abbrev S1024x1024 : Shape := ⟨2, ![1024, 1024]⟩
abbrev S4x256x1024 : Shape := ⟨3, ![4, 256, 1024]⟩
abbrev S4x65x1024 : Shape := ⟨3, ![4, 65, 1024]⟩
abbrev S1x256x512 : Shape := ⟨3, ![1, 256, 512]⟩
abbrev S1x65x512 : Shape := ⟨3, ![1, 65, 512]⟩
abbrev S1x256x1024 : Shape := ⟨3, ![1, 256, 1024]⟩
abbrev S1x65x1024 : Shape := ⟨3, ![1, 65, 1024]⟩
abbrev S256x512 : Shape := ⟨2, ![256, 512]⟩
abbrev S65x512 : Shape := ⟨2, ![65, 512]⟩
abbrev S1024x512 : Shape := ⟨2, ![1024, 512]⟩
abbrev S256x1024 : Shape := ⟨2, ![256, 1024]⟩
abbrev S65x1024 : Shape := ⟨2, ![65, 1024]⟩
abbrev S4x256x65x1024 : Shape := ⟨4, ![4, 256, 65, 1024]⟩
abbrev S1x32x1024 : Shape := ⟨3, ![1, 32, 1024]⟩
abbrev S1x32x65x1024 : Shape := ⟨4, ![1, 32, 65, 1024]⟩
abbrev S32x1024 : Shape := ⟨2, ![32, 1024]⟩
abbrev S32x1x1024 : Shape := ⟨3, ![32, 1, 1024]⟩
abbrev S32x65x1024 : Shape := ⟨3, ![32, 65, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4x256x512, .f32⟩
  | .hbm, ⟨1, _⟩ => ⟨S4x65x512, .f32⟩
  | .hbm, ⟨2, _⟩ => ⟨S1024x1024, .f32⟩
  | .hbm, ⟨3, _⟩ => ⟨S4x256x1024, .f32⟩
  | .hbm, ⟨4, _⟩ => ⟨S4x65x1024, .f32⟩
  | .hbm, ⟨5, _⟩ => ⟨S4x256x65x1024, .f32⟩
  | .local _ .vmem, ⟨0, _⟩ => ⟨S1x256x512, .f32⟩
  | .local _ .vmem, ⟨1, _⟩ => ⟨S1x256x512, .f32⟩
  | .local _ .vmem, ⟨2, _⟩ => ⟨S1x65x512, .f32⟩
  | .local _ .vmem, ⟨3, _⟩ => ⟨S1x65x512, .f32⟩
  | .local _ .vmem, ⟨4, _⟩ => ⟨S1024x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x65x1024, .f32⟩
  | .local _ .vmem, ⟨8, _⟩ => ⟨S1x65x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x65x1024, .f32⟩
  | .local _ .vmem, ⟨12, _⟩ => ⟨S1x65x1024, .f32⟩
  | .local _ .vmem, ⟨13, _⟩ => ⟨S1x32x65x1024, .f32⟩
  | .local _ .vmem, ⟨14, _⟩ => ⟨S1x32x65x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x65x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x65x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x65x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x65x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x65x512_S1x65x512_0_0_0 : ∀ a, (![0, 0, 0] : Fin 3 → Nat) a + S1x65x512.size a ≤ S1x65x512.size a
  h_S1x65x512 : 0 < S1x65x512.numel
  shapeCasts_S1x65x512_S65x512 : S1x65x512.ShapeCasts S65x512
  inb_S1024x1024_S1024x1024_0_0 : ∀ a, (![0, 0] : Fin 2 → Nat) a + S1024x1024.size a ≤ S1024x1024.size a
  h_S1024x1024 : 0 < S1024x1024.numel
  slices_S1024x1024_o0_0_S1024x512 : S1024x1024.Slices ![0, 0] S1024x512
  slices_S1024x1024_o0_512_S1024x512 : S1024x1024.Slices ![0, 512] S1024x512
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S1x65x1024_S1x65x1024_0_0_0 : ∀ a, (![0, 0, 0] : Fin 3 → Nat) a + S1x65x1024.size a ≤ S1x65x1024.size a
  h_S1x65x1024 : 0 < S1x65x1024.numel
  shapeCasts_S1x65x1024_S65x1024 : S1x65x1024.ShapeCasts S65x1024
  shapeCasts_S65x1024_S1x65x1024 : S65x1024.ShapeCasts S1x65x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S32x1x1024 : S32x1024.ShapeCasts S32x1x1024
  broadcasts_S32x1x1024_S32x65x1024 : S32x1x1024.Broadcasts S32x65x1024
  broadcasts_S1x65x1024_S32x65x1024 : S1x65x1024.Broadcasts S32x65x1024
  inb_S1x32x65x1024_S1x32x65x1024_0_0_0_0 : ∀ a, (![0, 0, 0, 0] : Fin 4 → Nat) a + S1x32x65x1024.size a ≤ S1x32x65x1024.size a
  h_S1x32x65x1024 : 0 < S1x32x65x1024.numel
  shapeCasts_S1x32x65x1024_S32x65x1024 : S1x32x65x1024.ShapeCasts S32x65x1024
  shapeCasts_S32x65x1024_S1x32x65x1024 : S32x65x1024.ShapeCasts S1x32x65x1024
  dot_S256x512_S1024x512_S256x1024_1_1_0_0_n_n_wf : DotDims.WF S256x512 S1024x512 S256x1024 [1] [1] [0] [0] [] []
  dot_S65x512_S1024x512_S65x1024_1_1_0_0_n_n_wf : DotDims.WF S65x512 S1024x512 S65x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x256x512.size a
  hwx0_0 : ∀ i : grid0.Coords, EltTy.bits .f32 = 32 ∨ (Rect.block (s := S4x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65x512.size a ≤ S4x65x512.size a
  hwx0_1 : ∀ i : grid0.Coords, EltTy.bits .f32 = 32 ∨ (Rect.block (s := S4x65x512) S1x65x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S4x256x1024.size a
  hwx0_3 : ∀ i : grid0.Coords, EltTy.bits .f32 = 32 ∨ (Rect.block (s := S4x256x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x65x1024.size a ≤ S4x65x1024.size a
  hwx0_4 : ∀ i : grid0.Coords, EltTy.bits .f32 = 32 ∨ (Rect.block (s := S4x65x1024) S1x65x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x1024.size a ≤ S4x256x1024.size a
  hwx1_0 : ∀ i : grid1.Coords, EltTy.bits .f32 = 32 ∨ (Rect.block (s := S4x256x1024) S1x32x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x65x1024.size a ≤ S4x65x1024.size a
  hwx1_1 : ∀ i : grid1.Coords, EltTy.bits .f32 = 32 ∨ (Rect.block (s := S4x65x1024) S1x65x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x65x1024.size a ≤ S4x256x65x1024.size a
  hwx1_2 : ∀ i : grid1.Coords, EltTy.bits .f32 = 32 ∨ (Rect.block (s := S4x256x65x1024) S1x32x65x1024.size (cc1_transform_2 i) (hinb1_2 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S65x512_S1024x512_S65x1024_1_1_0_0_n_n : DotDims S65x512 S1024x512 S65x1024 where
  lhsContracting := [1]
  rhsContracting := [1]
  lhsNonContracting := [0]
  rhsNonContracting := [0]
  lhsBatch := []
  rhsBatch := []
  wf := dot_S65x512_S1024x512_S65x1024_1_1_0_0_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x65x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x65x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1x32x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x65x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x32x65x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x256x512 : Shape := ⟨3, ![4, 256, 512]⟩
abbrev S4x65x512 : Shape := ⟨3, ![4, 65, 512]⟩
abbrev S1024x1024 : Shape := ⟨2, ![1024, 1024]⟩
abbrev S_ : Shape := ⟨0, ![]⟩
abbrev S1024x512 : Shape := ⟨2, ![1024, 512]⟩
abbrev S4x256x1024 : Shape := ⟨3, ![4, 256, 1024]⟩
abbrev S4x65x1024 : Shape := ⟨3, ![4, 65, 1024]⟩
abbrev S4x256x1x1024 : Shape := ⟨4, ![4, 256, 1, 1024]⟩
abbrev S4x1x65x1024 : Shape := ⟨4, ![4, 1, 65, 1024]⟩
abbrev S4x256x65x1024 : Shape := ⟨4, ![4, 256, 65, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x65x512, .f32⟩
  | .hbm, ⟨2, _⟩ => ⟨S1024x1024, .f32⟩
  | .hbm, ⟨3, _⟩ => ⟨S4x256x512, .f32⟩
  | .hbm, ⟨4, _⟩ => ⟨S4x256x512, .f32⟩
  | .hbm, ⟨5, _⟩ => ⟨S_, .f32⟩
  | .hbm, ⟨6, _⟩ => ⟨S4x256x512, .f32⟩
  | .hbm, ⟨7, _⟩ => ⟨S4x256x512, .f32⟩
  | .hbm, ⟨8, _⟩ => ⟨S4x256x512, .f32⟩
  | .hbm, ⟨9, _⟩ => ⟨S_, .f32⟩
  | .hbm, ⟨10, _⟩ => ⟨S4x256x512, .f32⟩
  | .hbm, ⟨11, _⟩ => ⟨S4x256x512, .f32⟩
  | .hbm, ⟨12, _⟩ => ⟨S4x256x512, .f32⟩
  | .hbm, ⟨13, _⟩ => ⟨S_, .f32⟩
  | .hbm, ⟨14, _⟩ => ⟨S4x256x512, .f32⟩
  | .hbm, ⟨15, _⟩ => ⟨S4x256x512, .f32⟩
  | .hbm, ⟨16, _⟩ => ⟨S_, .f32⟩
  | .hbm, ⟨17, _⟩ => ⟨S4x256x512, .f32⟩
  | .hbm, ⟨18, _⟩ => ⟨S4x256x512, .f32⟩
  | .hbm, ⟨19, _⟩ => ⟨S4x256x512, .f32⟩
  | .hbm, ⟨20, _⟩ => ⟨S4x65x512, .f32⟩
  | .hbm, ⟨21, _⟩ => ⟨S4x65x512, .f32⟩
  | .hbm, ⟨22, _⟩ => ⟨S_, .f32⟩
  | .hbm, ⟨23, _⟩ => ⟨S4x65x512, .f32⟩
  | .hbm, ⟨24, _⟩ => ⟨S4x65x512, .f32⟩
  | .hbm, ⟨25, _⟩ => ⟨S4x65x512, .f32⟩
  | .hbm, ⟨26, _⟩ => ⟨S_, .f32⟩
  | .hbm, ⟨27, _⟩ => ⟨S4x65x512, .f32⟩
  | .hbm, ⟨28, _⟩ => ⟨S4x65x512, .f32⟩
  | .hbm, ⟨29, _⟩ => ⟨S4x65x512, .f32⟩
  | .hbm, ⟨30, _⟩ => ⟨S_, .f32⟩
  | .hbm, ⟨31, _⟩ => ⟨S4x65x512, .f32⟩
  | .hbm, ⟨32, _⟩ => ⟨S4x65x512, .f32⟩
  | .hbm, ⟨33, _⟩ => ⟨S_, .f32⟩
  | .hbm, ⟨34, _⟩ => ⟨S4x65x512, .f32⟩
  | .hbm, ⟨35, _⟩ => ⟨S4x65x512, .f32⟩
  | .hbm, ⟨36, _⟩ => ⟨S4x65x512, .f32⟩
  | .hbm, ⟨37, _⟩ => ⟨S1024x512, .f32⟩
  | .hbm, ⟨38, _⟩ => ⟨S4x256x1024, .f32⟩
  | .hbm, ⟨39, _⟩ => ⟨S1024x512, .f32⟩
  | .hbm, ⟨40, _⟩ => ⟨S4x65x1024, .f32⟩
  | .hbm, ⟨41, _⟩ => ⟨S4x256x1x1024, .f32⟩
  | .hbm, ⟨42, _⟩ => ⟨S4x1x65x1024, .f32⟩
  | .hbm, ⟨43, _⟩ => ⟨S4x256x65x1024, .f32⟩
  | .hbm, ⟨44, _⟩ => ⟨S4x256x65x1024, .f32⟩
  | .hbm, ⟨45, _⟩ => ⟨S4x256x65x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S_S4x256x512 : S_.BroadcastsInDim S4x256x512 (![] : Fin 0 → Fin S4x256x512.rank)
  bcast_S_S4x65x512 : S_.BroadcastsInDim S4x65x512 (![] : Fin 0 → Fin S4x65x512.rank)
  slices_S1024x1024_S1024x512_0_0 : S1024x1024.Slices ![0, 0] S1024x512
  slices_S1024x1024_S1024x512_0_512 : S1024x1024.Slices ![0, 512] S1024x512
  bcast_S4x256x1024_S4x256x1x1024_0_1_3 : S4x256x1024.BroadcastsInDim S4x256x1x1024 (![0, 1, 3] : Fin 3 → Fin S4x256x1x1024.rank)
  bcast_S4x65x1024_S4x1x65x1024_0_2_3 : S4x65x1024.BroadcastsInDim S4x1x65x1024 (![0, 2, 3] : Fin 3 → Fin S4x1x65x1024.rank)
  bcast_S4x256x1x1024_S4x256x65x1024_0_1_2_3 : S4x256x1x1024.BroadcastsInDim S4x256x65x1024 (![0, 1, 2, 3] : Fin 4 → Fin S4x256x65x1024.rank)
  bcast_S4x1x65x1024_S4x256x65x1024_0_1_2_3 : S4x1x65x1024.BroadcastsInDim S4x256x65x1024 (![0, 1, 2, 3] : Fin 4 → Fin S4x256x65x1024.rank)
  dot_S4x256x512_S1024x512_S4x256x1024_2_1_01_0_n_n_wf : DotDims.WF S4x256x512 S1024x512 S4x256x1024 [2] [1] [0, 1] [0] [] []
  dot_S4x65x512_S1024x512_S4x65x1024_2_1_01_0_n_n_wf : DotDims.WF S4x65x512 S1024x512 S4x65x1024 [2] [1] [0, 1] [0] [] []

variable [Facts₀]

def dot_S4x256x512_S1024x512_S4x256x1024_2_1_01_0_n_n : DotDims S4x256x512 S1024x512 S4x256x1024 where
  lhsContracting := [2]
  rhsContracting := [1]
  lhsNonContracting := [0, 1]
  rhsNonContracting := [0]
  lhsBatch := []
  rhsBatch := []
  wf := dot_S4x256x512_S1024x512_S4x256x1024_2_1_01_0_n_n_wf
def dot_S4x65x512_S1024x512_S4x65x1024_2_1_01_0_n_n : DotDims S4x65x512 S1024x512 S4x65x1024 where
  lhsContracting := [2]
  rhsContracting := [1]
  lhsNonContracting := [0, 1]
  rhsNonContracting := [0]
  lhsBatch := []
  rhsBatch := []
  wf := dot_S4x65x512_S1024x512_S4x65x1024_2_1_01_0_n_n_wf

class Facts : Prop extends Facts₀ where

variable [Facts]
-- ==== Proof.JointSpec.lean ====
/-
  The joint network's value over the extended reals, as one function of the three argument arrays.

  With x : [4, 256, 512] the encoder states, y : [4, 65, 512] the decoder states and w : [1024, 1024] the
  weight of a bias-free linear layer on the concatenation of the two (its left 512 columns act on the encoder
  half, its right 512 columns on the decoder half), the result at (b, t, u, v) is

      Σ_k gelu (x b t k) · w v k   +   Σ_k gelu (y b u k) · w v (512 + k),

  where gelu is the tanh form  z · (½ · (1 + tanh (c₂ · (z + c₁ · (z · (z · z))))))  with the four f32 words
  ½ = 0x3F000000, 1 = 0x3F800000, c₂ = 0x3F4C422A, c₁ = 0x3D372713 read as the exact values they denote.
  The first sum depends on (b, t, v) only and the second on (b, u, v) only: the two projections, added over
  the (t, u) grid.
-/
import Idealize.ShloMosaic.PureOps.Ideal
import Idealize.ShloMosaic.Lib.ValueIdx

noncomputable section

namespace Cert.Joint

open Idealize.ShloMosaic Idealize.ShloMosaic.ValueIdx

/-- The tanh form of GELU on an extended real, its four constants the exact values of their f32 words. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- Column `k` of the weight's left half, -/
def colL (k : Fin 512) : Fin 1024 := ⟨k.val, by have := k.isLt; omega⟩
/-- and of its right half. -/
def colR (k : Fin 512) : Fin 1024 := ⟨512 + k.val, by have := k.isLt; omega⟩

/-- The encoder projection at (b, t, v): the left half of row `v` of the weight against gelu of row (b, t). -/
def encAt (x : (⟨3, ![4, 256, 512]⟩ : Shape).Idx → EReal) (w : (⟨2, ![1024, 1024]⟩ : Shape).Idx → EReal)
    (b : Fin 4) (t : Fin 256) (v : Fin 1024) : EReal :=
  ∑ k : Fin 512, gelu (x (ix3 b t k)) * w (ix2 v (colL k))

/-- The decoder projection at (b, u, v): the right half of row `v` of the weight against gelu of row (b, u). -/
def decAt (y : (⟨3, ![4, 65, 512]⟩ : Shape).Idx → EReal) (w : (⟨2, ![1024, 1024]⟩ : Shape).Idx → EReal)
    (b : Fin 4) (u : Fin 65) (v : Fin 1024) : EReal :=
  ∑ k : Fin 512, gelu (y (ix3 b u k)) * w (ix2 v (colR k))

/-- The encoder projection as an array [4, 256, 1024]. -/
def encProj (x : (⟨3, ![4, 256, 512]⟩ : Shape).Idx → EReal) (w : (⟨2, ![1024, 1024]⟩ : Shape).Idx → EReal) :
    (⟨3, ![4, 256, 1024]⟩ : Shape).Idx → EReal :=
  fun i => encAt x w (i 0) (i 1) (i 2)

/-- The decoder projection as an array [4, 65, 1024]. -/
def decProj (y : (⟨3, ![4, 65, 512]⟩ : Shape).Idx → EReal) (w : (⟨2, ![1024, 1024]⟩ : Shape).Idx → EReal) :
    (⟨3, ![4, 65, 1024]⟩ : Shape).Idx → EReal :=
  fun i => decAt y w (i 0) (i 1) (i 2)

/-- Two projections added over the (t, u) grid: at (b, t, u, v) the first at (b, t, v) plus the second at (b, u, v). -/
def gridAdd (p : (⟨3, ![4, 256, 1024]⟩ : Shape).Idx → EReal) (q : (⟨3, ![4, 65, 1024]⟩ : Shape).Idx → EReal) :
    (⟨4, ![4, 256, 65, 1024]⟩ : Shape).Idx → EReal :=
  fun i => p (ix3 (n0 := 4) (n1 := 256) (n2 := 1024) (i 0) (i 1) (i 3)) + q (ix3 (n0 := 4) (n1 := 65) (n2 := 1024) (i 0) (i 2) (i 3))

/-- The joint network's result array [4, 256, 65, 1024]. -/
def joint (x : (⟨3, ![4, 256, 512]⟩ : Shape).Idx → EReal) (y : (⟨3, ![4, 65, 512]⟩ : Shape).Idx → EReal)
    (w : (⟨2, ![1024, 1024]⟩ : Shape).Idx → EReal) : (⟨4, ![4, 256, 65, 1024]⟩ : Shape).Idx → EReal :=
  gridAdd (encProj x w) (decProj y w)

theorem encProj_apply (x : (⟨3, ![4, 256, 512]⟩ : Shape).Idx → EReal) (w : (⟨2, ![1024, 1024]⟩ : Shape).Idx → EReal)
    (b : Fin 4) (t : Fin 256) (v : Fin 1024) : encProj x w (ix3 b t v) = encAt x w b t v := rfl

theorem decProj_apply (y : (⟨3, ![4, 65, 512]⟩ : Shape).Idx → EReal) (w : (⟨2, ![1024, 1024]⟩ : Shape).Idx → EReal)
    (b : Fin 4) (u : Fin 65) (v : Fin 1024) : decProj y w (ix3 b u v) = decAt y w b u v := rfl

theorem gridAdd_apply (p : (⟨3, ![4, 256, 1024]⟩ : Shape).Idx → EReal) (q : (⟨3, ![4, 65, 1024]⟩ : Shape).Idx → EReal)
    (b : Fin 4) (t : Fin 256) (u : Fin 65) (v : Fin 1024) :
    gridAdd p q (ix4 b t u v) = p (ix3 b t v) + q (ix3 b u v) := rfl

theorem joint_apply (x : (⟨3, ![4, 256, 512]⟩ : Shape).Idx → EReal) (y : (⟨3, ![4, 65, 512]⟩ : Shape).Idx → EReal)
    (w : (⟨2, ![1024, 1024]⟩ : Shape).Idx → EReal) (b : Fin 4) (t : Fin 256) (u : Fin 65) (v : Fin 1024) :
    joint x y w (ix4 b t u v) = encAt x w b t v + decAt y w b u v := rfl

end Cert.Joint

end
-- ==== Proof.EncRegion.lean ====
/-
  The first pallas_call's first result. At grid point b the body reads block b of the encoder states
  ([1, 256, 512]) and the whole weight, and leaves in the block [1, 256, 1024] of its first result the product of
  gelu of the block with the transposed left half of the weight; the four blocks tile the array, so the array
  [4, 256, 1024] ends as the encoder projection of the arrays the call found.
-/
import proofs.«182079_j23338852286935_1_alg».proof.Proof.Gen.KernelIdeal.Frame
import proofs.«182079_j23338852286935_1_alg».proof.Proof.JointSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EncRegion

open Cert.KernelIdeal Cert.KernelIdeal.Gen Idealize.ShloMosaic Idealize.ShloMosaic.TcCoe Idealize.SL.Sem
open Idealize.ShloMosaic.Pipeline (Dat)
open Idealize.ShloMosaic.ValueIdx

/-! ## The matrix product at an index -/

/-- The left operand's kept axis follows the result's row. -/
theorem lhs_enc_0 (i : S256x1024.Idx) (q : dot_S256x512_S1024x512_S256x1024_1_1_0_0_n_n.contr.Idx) :
    (dot_S256x512_S1024x512_S256x1024_1_1_0_0_n_n.lhsIdx i q 0).val = (i 0).val := by
  unfold DotDims.lhsIdx
  rw [dif_neg (show ¬(0 : Fin S256x512.rank) ∈ dot_S256x512_S1024x512_S256x1024_1_1_0_0_n_n.lhsBatch by decide), dif_pos (show (0 : Fin S256x512.rank) ∈ dot_S256x512_S1024x512_S256x1024_1_1_0_0_n_n.lhsNonContracting by decide)]
  rfl
/-- The left operand's contracted axis follows the summation index. -/
theorem lhs_enc_1 (i : S256x1024.Idx) (q : dot_S256x512_S1024x512_S256x1024_1_1_0_0_n_n.contr.Idx) :
    (dot_S256x512_S1024x512_S256x1024_1_1_0_0_n_n.lhsIdx i q 1).val = (q ⟨0, by decide⟩).val :=
  dot_S256x512_S1024x512_S256x1024_1_1_0_0_n_n.lhsIdx_val_of_single rfl i q
/-- The right operand's kept axis follows the result's column. -/
theorem rhs_enc_0 (i : S256x1024.Idx) (q : dot_S256x512_S1024x512_S256x1024_1_1_0_0_n_n.contr.Idx) :
    (dot_S256x512_S1024x512_S256x1024_1_1_0_0_n_n.rhsIdx i q 0).val = (i 1).val := by
  unfold DotDims.rhsIdx
  rw [dif_neg (show ¬(0 : Fin S1024x512.rank) ∈ dot_S256x512_S1024x512_S256x1024_1_1_0_0_n_n.rhsBatch by decide), dif_pos (show (0 : Fin S1024x512.rank) ∈ dot_S256x512_S1024x512_S256x1024_1_1_0_0_n_n.rhsNonContracting by decide)]
  rfl
/-- The right operand's contracted axis follows the summation index. -/
theorem rhs_enc_1 (i : S256x1024.Idx) (q : dot_S256x512_S1024x512_S256x1024_1_1_0_0_n_n.contr.Idx) :
    (dot_S256x512_S1024x512_S256x1024_1_1_0_0_n_n.rhsIdx i q 1).val = (q ⟨0, by decide⟩).val :=
  dot_S256x512_S1024x512_S256x1024_1_1_0_0_n_n.rhsIdx_val_of_single rfl i q

/-- The product into a zero accumulator, at (r, v): row r of the left operand against row v of the right one. -/
theorem matmul_at (a : FVec Ideal S256x512 .bf16) (b : FVec Ideal S1024x512 .bf16) (r : Fin 256) (v : Fin 1024) :
    matmul dot_S256x512_S1024x512_S256x1024_1_1_0_0_n_n none a b (constant (F := Ideal) S256x1024 .f32 0x00000000#32) (ix2 r v)
      = ∑ k : Fin 512, a (ix2 r k) * b (ix2 v k) := by
  refine (Ideal.matmul_constant_zero_apply dot_S256x512_S1024x512_S256x1024_1_1_0_0_n_n none a b (ix2 r v)).trans ?_
  rw [← Equiv.sum_comp (ValueIdx.contrEquiv1 dot_S256x512_S1024x512_S256x1024_1_1_0_0_n_n 512 rfl rfl).symm]
  refine Finset.sum_congr rfl fun k _ => ?_
  have hk := ValueIdx.contrEquiv1_symm_val dot_S256x512_S1024x512_S256x1024_1_1_0_0_n_n 512 rfl rfl k
  have el : dot_S256x512_S1024x512_S256x1024_1_1_0_0_n_n.lhsIdx (ix2 r v) ((ValueIdx.contrEquiv1 dot_S256x512_S1024x512_S256x1024_1_1_0_0_n_n 512 rfl rfl).symm k) = ix2 r k := funext fun a => Fin.ext (by
    match a with
    | ⟨0, _⟩ => exact lhs_enc_0 _ _
    | ⟨1, _⟩ => exact (lhs_enc_1 _ _).trans hk)
  have er : dot_S256x512_S1024x512_S256x1024_1_1_0_0_n_n.rhsIdx (ix2 r v) ((ValueIdx.contrEquiv1 dot_S256x512_S1024x512_S256x1024_1_1_0_0_n_n 512 rfl rfl).symm k) = ix2 v k := funext fun a => Fin.ext (by
    match a with
    | ⟨0, _⟩ => exact rhs_enc_0 _ _
    | ⟨1, _⟩ => exact (rhs_enc_1 _ _).trans hk)
  rw [el, er]

/-! ## The body's store at an index -/

/-- The product of gelu of the block with the left half of the weight, before the unit axis is added back. -/
theorem prod_at (x0 : Vec Ideal S1x256x512 .f32) (x2 : Vec Ideal S1024x1024 .f32) (r : Fin 256) (v : Fin 1024) :
    k0_pay3 (F := Ideal) x0 x2 (ix2 r v)
      = ∑ k : Fin 512, Cert.Joint.gelu (x0 (ix3 (0 : Fin 1) r k)) * x2 (ix2 v (Cert.Joint.colL k)) := by
  unfold k0_pay3
  refine (matmul_at _ _ r v).trans ?_
  refine Finset.sum_congr rfl fun k _ => ?_
  have e1 : shapeCast S256x512 x0 shapeCasts_S1x256x512_S256x512 (ix2 r k) = x0 (ix3 (0 : Fin 1) r k) :=
    shapeCast_1ab_ab_apply x0 shapeCasts_S1x256x512_S256x512 r k
  have e2 : extractStridedSlice S1024x512 ![0, 0] x2 slices_S1024x1024_o0_0_S1024x512 (ix2 v k) = x2 (ix2 v (Cert.Joint.colL k)) :=
    extractStridedSlice_apply ![0, 0] x2 slices_S1024x1024_o0_0_S1024x512 (ix2 v k) (ix2 v (Cert.Joint.colL k)) (fun a => match a with
      | ⟨0, _⟩ => by show v.val = 0 + v.val; omega
      | ⟨1, _⟩ => by show k.val = 0 + k.val; omega)
  show Cert.Joint.gelu (shapeCast S256x512 x0 shapeCasts_S1x256x512_S256x512 (ix2 r k))
      * extractStridedSlice S1024x512 ![0, 0] x2 slices_S1024x1024_o0_0_S1024x512 (ix2 v k) = _
  rw [e1, e2]

/-- What the body stores, at (0, r, v): row r of gelu of the block against the left half of row v of the weight. -/
theorem pay_at (x0 : Vec Ideal S1x256x512 .f32) (x2 : Vec Ideal S1024x1024 .f32) (r : Fin 256) (v : Fin 1024) :
    k0_pay1 (F := Ideal) (k0_pay3 x0 x2) (ix3 (0 : Fin 1) r v)
      = ∑ k : Fin 512, Cert.Joint.gelu (x0 (ix3 (0 : Fin 1) r k)) * x2 (ix2 v (Cert.Joint.colL k)) := by
  unfold k0_pay1
  exact (shapeCast_ab_1ab_apply (k0_pay3 (F := Ideal) x0 x2) shapeCasts_S256x1024_S1x256x1024 0 r v).trans (prod_at x0 x2 r v)

/-- The same at any index of the block, its row and column named. -/
theorem pay_at_idx (x0 : Vec Ideal S1x256x512 .f32) (x2 : Vec Ideal S1024x1024 .f32) (y : S1x256x1024.Idx)
    (r : Fin 256) (v : Fin 1024) (hr : (y 1).val = r.val) (hv : (y 2).val = v.val) :
    k0_pay1 (F := Ideal) (k0_pay3 x0 x2) y
      = ∑ k : Fin 512, Cert.Joint.gelu (x0 (ix3 (0 : Fin 1) r k)) * x2 (ix2 v (Cert.Joint.colL k)) := by
  have hy : y = ix3 (0 : Fin 1) r v := funext fun a => Fin.ext (by
    match a with
    | ⟨0, _⟩ => show (y 0).val = 0; have h : (y 0).val < 1 := (y 0).isLt; omega
    | ⟨1, _⟩ => exact hr
    | ⟨2, _⟩ => exact hv)
  rw [hy]
  exact pay_at x0 x2 r v

/-! ## From the blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: at point t the encoder block and the result block are batch t, and the
    weight's one block is the whole weight. -/
theorem idx_facts : ∀ t : Fin cfg0.N,
    win0_0.index t (0 : Fin 3) = t.val ∧ win0_0.index t (1 : Fin 3) = 0 ∧ win0_0.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The encoder block at point t is batch t of the encoder states. -/
theorem enc_block_read (c : Dev nD) (t : Fin cfg0.N) (y : S1x256x512.Idx) (i : S4x256x512.Idx)
    (h0 : (i 0).val = t.val) (h1 : (i 1).val = (y 1).val) (h2 : (i 2).val = (y 2).val) :
    iblk0 (F := Ideal) V c 0 t y = V c main_arg0 i := by
  obtain ⟨e0, e1, e2, -⟩ := idx_facts t
  show V c main_arg0 (((cfg0.win 0).blk t).view.emb y) = V c main_arg0 i
  refine congrArg (V c main_arg0) (funext fun a => Fin.ext ?_)
  match a with
  | ⟨0, _⟩ => show win0_0.index t (0 : Fin 3) * 1 + 1 * (y 0).val = (i 0).val; have h : (y 0).val < 1 := (y 0).isLt; omega
  | ⟨1, _⟩ => show win0_0.index t (1 : Fin 3) * 256 + 1 * (y 1).val = (i 1).val; omega
  | ⟨2, _⟩ => show win0_0.index t (2 : Fin 3) * 512 + 1 * (y 2).val = (i 2).val; omega

/-- The weight's block at every point is the weight. -/
theorem weight_block_read (c : Dev nD) (t : Fin cfg0.N) (y : S1024x1024.Idx) (i : S1024x1024.Idx)
    (h0 : (i 0).val = (y 0).val) (h1 : (i 1).val = (y 1).val) :
    iblk0 (F := Ideal) V c 2 t y = V c main_arg2 i := by
  obtain ⟨-, -, -, e0, e1, -⟩ := idx_facts t
  show V c main_arg2 (((cfg0.win 2).blk t).view.emb y) = V c main_arg2 i
  refine congrArg (V c main_arg2) (funext fun a => Fin.ext ?_)
  match a with
  | ⟨0, _⟩ => show win0_2.index t (0 : Fin 2) * 1024 + 1 * (y 0).val = (i 0).val; omega
  | ⟨1, _⟩ => show win0_2.index t (1 : Fin 2) * 1024 + 1 * (y 1).val = (i 1).val; omega

/-- What point t writes back is block t of the encoder projection of the arrays the call found. -/
theorem flushed_eq (c : Dev nD) (t : Fin cfg0.N) :
    (dat0 (F := Ideal) V c).flushed 3 t
      = ((cfg0.win 3).blk t).view.read (Elt Ideal) (Cert.Joint.encProj (V c main_arg0) (V c main_arg2)) := by
  show (cfg0.win 3).cut (grid0.coords t) ((dat0 V c).after 3 t) = _
  rw [after0_3]
  unfold out0_3
  rw [View.canon_unit_zero hz3]
  simp only [View.ld_unit_zero (S := S1x256x512) hz3, View.ld_unit_zero (S := S1024x1024) hz2]
  obtain ⟨-, -, -, -, -, e0, e1, e2⟩ := idx_facts t
  funext j
  have hj0 : (j 0).val < 1 := (j 0).isLt
  have hi0 : ((((cfg0.win 3).blk t).view.emb j) 0).val = t.val := by
    show win0_3.index t (0 : Fin 3) * 1 + 1 * (j 0).val = t.val; omega
  have hi1 : ((((cfg0.win 3).blk t).view.emb j) 1).val = (j 1).val := by
    show win0_3.index t (1 : Fin 3) * 256 + 1 * (j 1).val = (j 1).val; omega
  have hi2 : ((((cfg0.win 3).blk t).view.emb j) 2).val = (j 2).val := by
    show win0_3.index t (2 : Fin 3) * 1024 + 1 * (j 2).val = (j 2).val; omega
  refine (pay_at_idx (iblk0 V c 0 t) (iblk0 V c 2 t) _ ⟨(j 1).val, (j 1).isLt⟩ ⟨(j 2).val, (j 2).isLt⟩ rfl rfl).trans ?_
  show _ = Cert.Joint.encAt (V c main_arg0) (V c main_arg2) ((((cfg0.win 3).blk t).view.emb j) 0)
    ((((cfg0.win 3).blk t).view.emb j) 1) ((((cfg0.win 3).blk t).view.emb j) 2)
  unfold Cert.Joint.encAt
  refine Finset.sum_congr rfl fun k _ => ?_
  rw [enc_block_read V c t (ix3 (0 : Fin 1) (⟨(j 1).val, (j 1).isLt⟩ : Fin 256) k)
      (ix3 ((((cfg0.win 3).blk t).view.emb j) 0) ((((cfg0.win 3).blk t).view.emb j) 1) k) hi0 hi1 rfl,
    weight_block_read V c t (ix2 (⟨(j 2).val, (j 2).isLt⟩ : Fin 1024) (Cert.Joint.colL k))
      (ix2 ((((cfg0.win 3).blk t).view.emb j) 2) (Cert.Joint.colL k)) hi2 rfl]

/-- An index of the result array is in point t's block iff each coordinate is in the block's range on its axis. -/
theorem mem_blk (t : Fin cfg0.N) (i : S4x256x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v0_0).slice (win0_3.rect t)).set ↔ _
  rw [View.set_slice_whole, Rect.mem_set_unit]
  exact Iff.rfl

/-- Every index of the result array is in the block of the point that is its batch: a block is a whole batch. -/
theorem cover (i : S4x256x1024.Idx) :
    ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 1024 := (i 2).isLt
  have hN : cfg0.N = 4 := by decide
  obtain ⟨t, ht⟩ : ∃ t : Fin cfg0.N, t.val = (i 0).val := ⟨⟨(i 0).val, by rw [hN]; exact hi0⟩, rfl⟩
  obtain ⟨-, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- After the call, its first result array is the encoder projection of the encoder states and the weight as the call found them. -/
theorem enc_array (c : Dev nD) :
    (dat0 (F := Ideal) V c).arrAt 3 cfg0.N = Cert.Joint.encProj (V c main_arg0) (V c main_arg2) :=
  (dat0 (F := Ideal) V c).arrAt_eq_of_cover 3 _ (fun t _ => flushed_eq V c t) (fun i => cover i)

end Cert.KernelIdeal.EncRegion

end
-- ==== Proof.DecRegion.lean ====
/-
  The first pallas_call's second result. At grid point b the body reads block b of the decoder states
  ([1, 65, 512]) and the whole weight, and leaves in the block [1, 65, 1024] of its second result the product of
  gelu of the block with the transposed right half of the weight; the four blocks tile the array, so the array
  [4, 65, 1024] ends as the decoder projection of the arrays the call found.
-/
import proofs.«182079_j23338852286935_1_alg».proof.Proof.Gen.KernelIdeal.Frame
import proofs.«182079_j23338852286935_1_alg».proof.Proof.JointSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DecRegion

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The contraction's operand indices

The product contracts axis 1 of both operands; the left operand keeps the result's row on its axis 0 and the
right operand keeps the result's column on its axis 0. -/

theorem lhs_axis0 (i : S65x1024.Idx) (q : dot_S65x512_S1024x512_S65x1024_1_1_0_0_n_n.contr.Idx) :
    (dot_S65x512_S1024x512_S65x1024_1_1_0_0_n_n.lhsIdx i q 0).val = (i 0).val := by
  unfold DotDims.lhsIdx
  rw [dif_neg (show ¬(0 : Fin S65x512.rank) ∈ dot_S65x512_S1024x512_S65x1024_1_1_0_0_n_n.lhsBatch by decide), dif_pos (show (0 : Fin S65x512.rank) ∈ dot_S65x512_S1024x512_S65x1024_1_1_0_0_n_n.lhsNonContracting by decide)]
  rfl

theorem lhs_axis1 (i : S65x1024.Idx) (q : dot_S65x512_S1024x512_S65x1024_1_1_0_0_n_n.contr.Idx) :
    (dot_S65x512_S1024x512_S65x1024_1_1_0_0_n_n.lhsIdx i q 1).val = (q ⟨0, by decide⟩).val :=
  dot_S65x512_S1024x512_S65x1024_1_1_0_0_n_n.lhsIdx_val_of_single rfl i q

theorem rhs_axis0 (i : S65x1024.Idx) (q : dot_S65x512_S1024x512_S65x1024_1_1_0_0_n_n.contr.Idx) :
    (dot_S65x512_S1024x512_S65x1024_1_1_0_0_n_n.rhsIdx i q 0).val = (i 1).val := by
  unfold DotDims.rhsIdx
  rw [dif_neg (show ¬(0 : Fin S1024x512.rank) ∈ dot_S65x512_S1024x512_S65x1024_1_1_0_0_n_n.rhsBatch by decide), dif_pos (show (0 : Fin S1024x512.rank) ∈ dot_S65x512_S1024x512_S65x1024_1_1_0_0_n_n.rhsNonContracting by decide)]
  rfl

theorem rhs_axis1 (i : S65x1024.Idx) (q : dot_S65x512_S1024x512_S65x1024_1_1_0_0_n_n.contr.Idx) :
    (dot_S65x512_S1024x512_S65x1024_1_1_0_0_n_n.rhsIdx i q 1).val = (q ⟨0, by decide⟩).val :=
  dot_S65x512_S1024x512_S65x1024_1_1_0_0_n_n.rhsIdx_val_of_single rfl i q

/-- The product into a zero accumulator, at (r, v): row r of the left operand against row v of the right, summed
    over the 512 contracted positions. -/
theorem matmul_at (a : FVec Ideal S65x512 .bf16) (b : FVec Ideal S1024x512 .bf16) (r : Fin 65) (v : Fin 1024) :
    matmul dot_S65x512_S1024x512_S65x1024_1_1_0_0_n_n none a b (constant (F := Ideal) S65x1024 .f32 0x00000000#32) (ix2 r v)
      = ∑ k : Fin 512, a (ix2 r k) * b (ix2 v k) := by
  refine (Ideal.matmul_constant_zero_apply dot_S65x512_S1024x512_S65x1024_1_1_0_0_n_n none a b (ix2 r v)).trans ?_
  rw [← Equiv.sum_comp (ValueIdx.contrEquiv1 dot_S65x512_S1024x512_S65x1024_1_1_0_0_n_n 512 rfl rfl).symm]
  refine Finset.sum_congr rfl fun k _ => ?_
  have hk := ValueIdx.contrEquiv1_symm_val dot_S65x512_S1024x512_S65x1024_1_1_0_0_n_n 512 rfl rfl k
  have el : dot_S65x512_S1024x512_S65x1024_1_1_0_0_n_n.lhsIdx (ix2 r v) ((ValueIdx.contrEquiv1 dot_S65x512_S1024x512_S65x1024_1_1_0_0_n_n 512 rfl rfl).symm k) = ix2 r k := funext fun a => Fin.ext (by
    match a with
    | ⟨0, _⟩ => exact lhs_axis0 _ _
    | ⟨1, _⟩ => exact (lhs_axis1 _ _).trans hk)
  have er : dot_S65x512_S1024x512_S65x1024_1_1_0_0_n_n.rhsIdx (ix2 r v) ((ValueIdx.contrEquiv1 dot_S65x512_S1024x512_S65x1024_1_1_0_0_n_n 512 rfl rfl).symm k) = ix2 v k := funext fun a => Fin.ext (by
    match a with
    | ⟨0, _⟩ => exact rhs_axis0 _ _
    | ⟨1, _⟩ => exact (rhs_axis1 _ _).trans hk)
  rw [el, er]

/-! ## The store's payload at an index -/

/-- The value the body stores at (0, r, v) of its second result block: gelu of row r of the decoder block against
    the right half of row v of the weight. -/
theorem pay_at (x1 : Vec Ideal S1x65x512 .f32) (x2 : Vec Ideal S1024x1024 .f32) (r : Fin 65) (v : Fin 1024) :
    k0_pay2 (F := Ideal) (k0_pay4 x1 x2) (ix3 (0 : Fin 1) r v)
      = ∑ k : Fin 512, Cert.Joint.gelu (x1 (ix3 (0 : Fin 1) r k)) * x2 (ix2 v (Cert.Joint.colR k)) := by
  unfold k0_pay2
  refine (shapeCast_ab_1ab_apply _ _ (0 : Fin 1) r v).trans ?_
  unfold k0_pay4
  refine (matmul_at _ _ r v).trans ?_
  refine Finset.sum_congr rfl fun k _ => ?_
  have hl : shapeCast S65x512 x1 shapeCasts_S1x65x512_S65x512 (ix2 r k) = x1 (ix3 (0 : Fin 1) r k) :=
    shapeCast_1ab_ab_apply x1 shapeCasts_S1x65x512_S65x512 r k
  have hr : extractStridedSlice S1024x512 ![0, 512] x2 slices_S1024x1024_o0_512_S1024x512 (ix2 v k) = x2 (ix2 v (Cert.Joint.colR k)) :=
    extractStridedSlice_apply ![0, 512] x2 slices_S1024x1024_o0_512_S1024x512 (ix2 v k) (ix2 v (Cert.Joint.colR k)) (fun a => match a with
      | ⟨0, _⟩ => by show v.val = 0 + v.val; omega
      | ⟨1, _⟩ => by show 512 + k.val = 512 + k.val; rfl)
  show Cert.Joint.gelu (shapeCast S65x512 x1 shapeCasts_S1x65x512_S65x512 (ix2 r k))
      * extractStridedSlice S1024x512 ![0, 512] x2 slices_S1024x1024_o0_512_S1024x512 (ix2 v k) = _
  rw [hl, hr]

/-! ## From the blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The grid has four points, one per batch. -/
theorem N_eq : cfg0.N = 4 := by decide

/-- The batch a grid point works on. -/
def batch (t : Fin cfg0.N) : Fin 4 := ⟨t.val, Nat.lt_of_lt_of_eq t.isLt N_eq⟩

/-- The printed index maps, decided over the grid: at point t the decoder block and the result block are block
    (t, 0, 0) of their arrays, and the weight's block is the whole weight. -/
theorem idx_facts : ∀ t : Fin cfg0.N,
    win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The decoder block at point t holds, at (0, r, k), the decoder states at (t, r, k). -/
theorem dec_block_at (c : Dev nD) (t : Fin cfg0.N) (r : Fin 65) (k : Fin 512) :
    (iblk0 (F := Ideal) V c 1 t : Vec Ideal S1x65x512 .f32) (ix3 (0 : Fin 1) r k) = V c main_arg1 (ix3 (batch t) r k) := by
  obtain ⟨e0, e1, e2, -⟩ := idx_facts t
  show V c main_arg1 (((cfg0.win 1).blk t).view.emb (ix3 (0 : Fin 1) r k)) = V c main_arg1 (ix3 (batch t) r k)
  refine congrArg _ (funext fun a => Fin.ext ?_)
  match a with
  | ⟨0, _⟩ => show win0_1.index t (0 : Fin 3) * 1 + 1 * (0 : Fin 1).val = t.val; rw [e0]; simp
  | ⟨1, _⟩ => show win0_1.index t (1 : Fin 3) * 65 + 1 * r.val = r.val; omega
  | ⟨2, _⟩ => show win0_1.index t (2 : Fin 3) * 512 + 1 * k.val = k.val; omega

/-- The weight's block at any point is the weight. -/
theorem weight_block_at (c : Dev nD) (t : Fin cfg0.N) (v : Fin 1024) (j : Fin 1024) :
    (iblk0 (F := Ideal) V c 2 t : Vec Ideal S1024x1024 .f32) (ix2 v j) = V c main_arg2 (ix2 v j) := by
  obtain ⟨-, -, -, e0, e1, -⟩ := idx_facts t
  show V c main_arg2 (((cfg0.win 2).blk t).view.emb (ix2 v j)) = V c main_arg2 (ix2 v j)
  refine congrArg _ (funext fun a => Fin.ext ?_)
  match a with
  | ⟨0, _⟩ => show win0_2.index t (0 : Fin 2) * 1024 + 1 * v.val = v.val; omega
  | ⟨1, _⟩ => show win0_2.index t (1 : Fin 2) * 1024 + 1 * j.val = j.val; omega

/-- What point t writes back is block t of the decoder projection of the arrays the call found. -/
theorem flushed_eq (c : Dev nD) (t : Fin cfg0.N) :
    (dat0 (F := Ideal) V c).flushed 4 t
      = ((cfg0.win 4).blk t).view.read (Elt Ideal) (Cert.Joint.decProj (V c main_arg1) (V c main_arg2)) := by
  show (cfg0.win 4).cut (grid0.coords t) ((dat0 V c).after 4 t) = _
  rw [after0_4]
  unfold out0_4
  rw [View.canon_unit_zero hz3]
  simp only [View.ld_unit_zero (S := S1x65x512) hz3, View.ld_unit_zero (S := S1024x1024) hz2]
  obtain ⟨-, -, -, -, -, e0, e1, e2⟩ := idx_facts t
  funext y
  obtain ⟨u, r, v, rfl⟩ : ∃ (u : Fin 1) (r : Fin 65) (v : Fin 1024), y = ix3 u r v :=
    ⟨y 0, y 1, y 2, eq_ix3 (n0 := 1) (n1 := 65) (n2 := 1024) y⟩
  obtain rfl : u = 0 := Subsingleton.elim _ _
  have hemb : ((cfg0.win 4).blk t).view.emb (ix3 (0 : Fin 1) r v) = ix3 (batch t) r v := funext fun a => Fin.ext (by
    match a with
    | ⟨0, _⟩ => show win0_4.index t (0 : Fin 3) * 1 + 1 * (0 : Fin 1).val = t.val; rw [e0]; simp
    | ⟨1, _⟩ => show win0_4.index t (1 : Fin 3) * 65 + 1 * r.val = r.val; omega
    | ⟨2, _⟩ => show win0_4.index t (2 : Fin 3) * 1024 + 1 * v.val = v.val; omega)
  show k0_pay2 (F := Ideal) (k0_pay4 (iblk0 V c 1 t) (iblk0 V c 2 t)) (ix3 (0 : Fin 1) r v)
      = Cert.Joint.decProj (V c main_arg1) (V c main_arg2) (((cfg0.win 4).blk t).view.emb (ix3 (0 : Fin 1) r v))
  rw [hemb]
  refine (pay_at (iblk0 V c 1 t) (iblk0 V c 2 t) r v).trans ?_
  refine Eq.trans ?_ (Cert.Joint.decProj_apply (V c main_arg1) (V c main_arg2) (batch t) r v).symm
  unfold Cert.Joint.decAt
  refine Finset.sum_congr rfl fun k _ => ?_
  exact congrArg₂ (fun a b => Cert.Joint.gelu a * b) (dec_block_at V c t r k) (weight_block_at V c t v (Cert.Joint.colR k))

/-- An index of the array is in point t's block iff each coordinate is in the block's range on its axis. -/
theorem mem_blk (t : Fin cfg0.N) (i : S4x65x1024.Idx) :
    i ∈ ((cfg0.win 4).blk t).view.set ↔ ∀ a : Fin 3, win0_4.index t a * S1x65x1024.size a ≤ (i a).val ∧ (i a).val < win0_4.index t a * S1x65x1024.size a + S1x65x1024.size a := by
  show i ∈ ((View.whole main_v0_1).slice (win0_4.rect t)).set ↔ _
  rw [View.set_slice_whole, Rect.mem_set_unit]
  exact Iff.rfl

/-- Every index (b, r, v) of the array lies in the block of the point that works on batch b, and that point
    writes its block back. -/
theorem cover (i : S4x65x1024.Idx) :
    ∃ t : Fin cfg0.N, (cfg0.win 4).flush t = true ∧ i ∈ ((cfg0.win 4).blk t).view.set := by
  have h0 : (i 0).val < 4 := (i 0).isLt
  have h1 : (i 1).val < 65 := (i 1).isLt
  have h2 : (i 2).val < 1024 := (i 2).isLt
  obtain ⟨t, ht⟩ : ∃ t : Fin cfg0.N, t.val = (i 0).val := ⟨⟨(i 0).val, Nat.lt_of_lt_of_eq h0 N_eq.symm⟩, rfl⟩
  refine ⟨t, flush0_4 t, ?_⟩
  rw [mem_blk]
  obtain ⟨-, -, -, -, -, e0, e1, e2⟩ := idx_facts t
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 65 ≤ (i 1).val ∧ (i 1).val < win0_4.index t (1 : Fin 3) * 65 + 65
    omega
  | ⟨2, _⟩ =>
    show win0_4.index t (2 : Fin 3) * 1024 ≤ (i 2).val ∧ (i 2).val < win0_4.index t (2 : Fin 3) * 1024 + 1024
    omega

/-- After the call, its second result array is the decoder projection of the decoder states and the weight as the call found them. -/
theorem dec_array (c : Dev nD) :
    (dat0 (F := Ideal) V c).arrAt 4 cfg0.N = Cert.Joint.decProj (V c main_arg1) (V c main_arg2) :=
  (dat0 (F := Ideal) V c).arrAt_eq_of_cover 4 _ (fun t _ => flushed_eq V c t) cover

end Cert.KernelIdeal.DecRegion

end
-- ==== Proof.SumRegion.lean ====
/-
  The second pallas_call. At grid point (b, s) the body reads rows 32 s … 32 s + 31 of batch b of its first
  operand ([1, 32, 1024]) and batch b of its second ([1, 65, 1024]) and leaves in the block [1, 32, 65, 1024] of
  its result, at (0, r, u, v), the first at (0, r, v) plus the second at (0, u, v); the thirty-two blocks tile the
  array, so the array [4, 256, 65, 1024] ends as the two operands added over the (t, u) grid.
-/
import proofs.«182079_j23338852286935_1_alg».proof.Proof.Gen.KernelIdeal.Frame
import proofs.«182079_j23338852286935_1_alg».proof.Proof.JointSpec
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.SumRegion

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The call's first operand array as it finds it, at its literal type [4, 256, 1024], -/
abbrev encArr (c : Dev nD) : (⟨3, ![4, 256, 1024]⟩ : Shape).Idx → EReal := V c main_v0_0
/-- and its second, [4, 65, 1024]. -/
abbrev decArr (c : Dev nD) : (⟨3, ![4, 65, 1024]⟩ : Shape).Idx → EReal := V c main_v0_1

/-! ## The body's store at an index -/

theorem zeros3 : (![0, 0, 0] : Fin 3 → Nat) = fun _ => 0 :=
  funext fun a => match a with | ⟨0, _⟩ => rfl | ⟨1, _⟩ => rfl | ⟨2, _⟩ => rfl
theorem zeros4 : (![0, 0, 0, 0] : Fin 4 → Nat) = fun _ => 0 :=
  funext fun a => match a with | ⟨0, _⟩ => rfl | ⟨1, _⟩ => rfl | ⟨2, _⟩ => rfl | ⟨3, _⟩ => rfl

/-- A [32, 1024] array viewed [32, 1, 1024] reads, at (r, 0, v), the operand at (r, v): the same row-major position. -/
theorem mid_unit_apply (y : (⟨2, ![32, 1024]⟩ : Shape).Idx → EReal) (h : (⟨2, ![32, 1024]⟩ : Shape).ShapeCasts ⟨3, ![32, 1, 1024]⟩)
    (r : Fin 32) (z : Fin 1) (v : Fin 1024) : shapeCast ⟨3, ![32, 1, 1024]⟩ y h (ix3 r z v) = y (ix2 r v) :=
  shapeCast_apply y h _ _ (by
    have hz : z.val = 0 := by omega
    rw [Shape.rowMajor_val_three, Shape.rowMajor_val_two]
    show r.val * 1024 + v.val = (r.val * 1 + z.val) * 1024 + v.val
    rw [hz, Nat.mul_one, Nat.add_zero])

/-- What the body stores at (0, r, u, v) of its output block: the first block at (0, r, v) plus the second at (0, u, v). The
    first block, [1, 32, 1024], loses its unit axis, gains one in the middle and is repeated along it 65 times; the second,
    [1, 65, 1024], is repeated 32 times along its unit axis; their sum gets a leading unit axis back. -/
theorem pay_at (x0 : Vec Ideal S1x32x1024 .f32) (x1 : Vec Ideal S1x65x1024 .f32) (z : Fin 1) (r : Fin 32) (u : Fin 65) (v : Fin 1024) :
    k1_pay1 (F := Ideal) x0 x1 (ix4 z r u v) = x0 (ix3 (0 : Fin 1) r v) + x1 (ix3 (0 : Fin 1) u v) := by
  unfold k1_pay1
  refine (shapeCast_abc_1abc_apply _ shapeCasts_S32x65x1024_S1x32x65x1024 z r u v).trans ?_
  refine (addf_apply _ _ (ix3 r u v)).trans ?_
  refine congrArg₂ (· + ·) ?_ ?_
  · refine (broadcastTo_apply _ broadcasts_S32x1x1024_S32x65x1024 (ix3 r u v) (ix3 r (0 : Fin 1) v) (fun a => match a with
      | ⟨0, _⟩ => by show r.val = if (32 : Nat) = 1 then 0 else r.val; rw [if_neg (by decide)]
      | ⟨1, _⟩ => by show 0 = if (1 : Nat) = 1 then 0 else u.val; rw [if_pos rfl]
      | ⟨2, _⟩ => by show v.val = if (1024 : Nat) = 1 then 0 else v.val; rw [if_neg (by decide)])).trans ?_
    refine (mid_unit_apply _ shapeCasts_S32x1024_S32x1x1024 r 0 v).trans ?_
    exact shapeCast_1ab_ab_apply x0 shapeCasts_S1x32x1024_S32x1024 r v
  · refine (broadcastTo_apply _ broadcasts_S1x65x1024_S32x65x1024 (ix3 r u v) (ix3 (0 : Fin 1) u v) (fun a => match a with
      | ⟨0, _⟩ => by show 0 = if (1 : Nat) = 1 then 0 else r.val; rw [if_pos rfl]
      | ⟨1, _⟩ => by show u.val = if (65 : Nat) = 1 then 0 else u.val; rw [if_neg (by decide)]
      | ⟨2, _⟩ => by show v.val = if (1024 : Nat) = 1 then 0 else v.val; rw [if_neg (by decide)])).trans ?_
    refine (shapeCast_ab_1ab_apply _ shapeCasts_S65x1024_S1x65x1024 0 u v).trans ?_
    exact shapeCast_1ab_ab_apply x1 shapeCasts_S1x65x1024_S65x1024 u v

/-! ## The windows' blocks on the grid [4, 8] -/

/-- The printed index maps, decided over the 32 points: the first operand's block moves with the output's on the batch
    and the row-tile axes; the second operand's on the batch axis only; every other block index is 0. -/
theorem idx_facts : ∀ t : Fin cfg1.N,
    win1_0.index t (0 : Fin 3) = win1_2.index t (0 : Fin 4) ∧ win1_0.index t (1 : Fin 3) = win1_2.index t (1 : Fin 4)
    ∧ win1_0.index t (2 : Fin 3) = 0
    ∧ win1_1.index t (0 : Fin 3) = win1_2.index t (0 : Fin 4) ∧ win1_1.index t (1 : Fin 3) = 0 ∧ win1_1.index t (2 : Fin 3) = 0
    ∧ win1_2.index t (2 : Fin 4) = 0 ∧ win1_2.index t (3 : Fin 4) = 0 :=
  (by decide +kernel : ∀ t : Fin grid1.N, _)

/-- Every (batch, row tile) is some point's output block. -/
theorem idx_onto : ∀ (q0 : Fin 4) (q1 : Fin 8), ∃ t : Fin cfg1.N, win1_2.index t = ![q0.val, q1.val, 0, 0] :=
  (by decide +kernel : ∀ (q0 : Fin 4) (q1 : Fin 8), ∃ t : Fin grid1.N, win1_2.index t = ![q0.val, q1.val, 0, 0])

/-- WHAT POINT `t` WRITES BACK is its block of the two operand arrays added over the (t, u) grid. -/
theorem flushed_eq (c : Dev nD) (t : Fin cfg1.N) :
    (dat1 (F := Ideal) V c).flushed 2 t
      = ((cfg1.win 2).blk t).view.read (Elt Ideal) (Cert.Joint.gridAdd (V c main_v0_0) (V c main_v0_1)) := by
  show (cfg1.win 2).cut (grid1.coords t) ((dat1 V c).after 2 t) = _
  rw [after1_2]
  unfold out1_2
  rw [View.canon_unit_zero zeros4]
  simp only [View.ld_unit_zero (S := S1x32x1024) zeros3, View.ld_unit_zero (S := S1x65x1024) zeros3]
  obtain ⟨e0, e1, e2, e3, e4, e5, e6, e7⟩ := idx_facts t
  funext j
  obtain ⟨z, r, u, v, rfl⟩ : ∃ (z : Fin 1) (r : Fin 32) (u : Fin 65) (v : Fin 1024), j = ix4 z r u v :=
    ⟨j 0, j 1, j 2, j 3, eq_ix4 j⟩
  show k1_pay1 (F := Ideal) (iblk1 V c 0 t) (iblk1 V c 1 t) (ix4 z r u v)
    = Cert.Joint.gridAdd (V c main_v0_0) (V c main_v0_1) (((cfg1.win 2).blk t).view.emb (ix4 z r u v))
  refine (pay_at (iblk1 V c 0 t) (iblk1 V c 1 t) z r u v).trans ?_
  have hz : z.val = 0 := by omega
  -- the first operand's block at (0, r, v) lies under the output block's (z, r, u, v) on the batch, row and lane axes
  have h0 : ((cfg1.win 0).blk t).view.emb (ix3 (0 : Fin 1) r v)
      = ix3 (n0 := 4) (n1 := 256) (n2 := 1024) ((((cfg1.win 2).blk t).view.emb (ix4 z r u v)) 0)
          ((((cfg1.win 2).blk t).view.emb (ix4 z r u v)) 1) ((((cfg1.win 2).blk t).view.emb (ix4 z r u v)) 3) := by
    funext a; apply Fin.ext
    match a with
    | ⟨0, _⟩ => show win1_0.index t (0 : Fin 3) * 1 + 1 * 0 = win1_2.index t (0 : Fin 4) * 1 + 1 * z.val; omega
    | ⟨1, _⟩ => show win1_0.index t (1 : Fin 3) * 32 + 1 * r.val = win1_2.index t (1 : Fin 4) * 32 + 1 * r.val; omega
    | ⟨2, _⟩ => show win1_0.index t (2 : Fin 3) * 1024 + 1 * v.val = win1_2.index t (3 : Fin 4) * 1024 + 1 * v.val; omega
  -- the second operand's block at (0, u, v) lies under it on the batch, u and lane axes
  have h1 : ((cfg1.win 1).blk t).view.emb (ix3 (0 : Fin 1) u v)
      = ix3 (n0 := 4) (n1 := 65) (n2 := 1024) ((((cfg1.win 2).blk t).view.emb (ix4 z r u v)) 0)
          ((((cfg1.win 2).blk t).view.emb (ix4 z r u v)) 2) ((((cfg1.win 2).blk t).view.emb (ix4 z r u v)) 3) := by
    funext a; apply Fin.ext
    match a with
    | ⟨0, _⟩ => show win1_1.index t (0 : Fin 3) * 1 + 1 * 0 = win1_2.index t (0 : Fin 4) * 1 + 1 * z.val; omega
    | ⟨1, _⟩ => show win1_1.index t (1 : Fin 3) * 65 + 1 * u.val = win1_2.index t (2 : Fin 4) * 65 + 1 * u.val; omega
    | ⟨2, _⟩ => show win1_1.index t (2 : Fin 3) * 1024 + 1 * v.val = win1_2.index t (3 : Fin 4) * 1024 + 1 * v.val; omega
  show encArr V c (((cfg1.win 0).blk t).view.emb (ix3 (0 : Fin 1) r v)) + decArr V c (((cfg1.win 1).blk t).view.emb (ix3 (0 : Fin 1) u v))
    = encArr V c (ix3 (n0 := 4) (n1 := 256) (n2 := 1024) ((((cfg1.win 2).blk t).view.emb (ix4 z r u v)) 0)
          ((((cfg1.win 2).blk t).view.emb (ix4 z r u v)) 1) ((((cfg1.win 2).blk t).view.emb (ix4 z r u v)) 3))
      + decArr V c (ix3 (n0 := 4) (n1 := 65) (n2 := 1024) ((((cfg1.win 2).blk t).view.emb (ix4 z r u v)) 0)
          ((((cfg1.win 2).blk t).view.emb (ix4 z r u v)) 2) ((((cfg1.win 2).blk t).view.emb (ix4 z r u v)) 3))
  rw [h0, h1]

/-! ## The blocks tile the array -/

/-- An index of the array is in point `t`'s output block iff each coordinate is in the block's range on its axis. -/
theorem mem_blk (t : Fin cfg1.N) (i : S4x256x65x1024.Idx) :
    i ∈ ((cfg1.win 2).blk t).view.set ↔ ∀ a : Fin 4, win1_2.index t a * S1x32x65x1024.size a ≤ (i a).val
      ∧ (i a).val < win1_2.index t a * S1x32x65x1024.size a + S1x32x65x1024.size a := by
  show i ∈ ((View.whole main_v1).slice (win1_2.rect t)).set ↔ _
  rw [View.set_slice_whole, Rect.mem_set_unit]
  exact Iff.rfl

/-- Every index (b, t, u, v) of the array is in the output block of the point (b, t / 32), which writes back. -/
theorem cover (i : S4x256x65x1024.Idx) :
    ∃ t : Fin cfg1.N, (cfg1.win 2).flush t = true ∧ i ∈ ((cfg1.win 2).blk t).view.set := by
  have hi0 : (i 0).val < 4 := (i 0).isLt
  have hi1 : (i 1).val < 256 := (i 1).isLt
  have hi2 : (i 2).val < 65 := (i 2).isLt
  have hi3 : (i 3).val < 1024 := (i 3).isLt
  obtain ⟨t, ht⟩ := idx_onto ⟨(i 0).val, hi0⟩ ⟨(i 1).val / 32, by omega⟩
  have q0 : win1_2.index t (0 : Fin 4) = (i 0).val := congrFun ht 0
  have q1 : win1_2.index t (1 : Fin 4) = (i 1).val / 32 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 32 ≤ (i 1).val ∧ (i 1).val < win1_2.index t (1 : Fin 4) * 32 + 32; omega
  | ⟨2, _⟩ => show win1_2.index t (2 : Fin 4) * 65 ≤ (i 2).val ∧ (i 2).val < win1_2.index t (2 : Fin 4) * 65 + 65; omega
  | ⟨3, _⟩ => show win1_2.index t (3 : Fin 4) * 1024 ≤ (i 3).val ∧ (i 3).val < win1_2.index t (3 : Fin 4) * 1024 + 1024; omega

/-- After the call, its result array is its two operand arrays, as the call found them, added over the (t, u) grid. -/
theorem sum_array (c : Dev nD) :
    (dat1 (F := Ideal) V c).arrAt 2 cfg1.N = Cert.Joint.gridAdd (V c main_v0_0) (V c main_v0_1) :=
  (dat1 (F := Ideal) V c).arrAt_eq_of_cover 2 _ (fun t _ => flushed_eq V c t) cover

end Cert.KernelIdeal.SumRegion

end
-- ==== Proof.KernelValue.lean ====
/-
  The kernel's result as one function of its arguments. The second pallas_call leaves in main_v1 its two operand
  arrays added over the (t, u) grid; those operands are the first pallas_call's two results, the encoder and the
  decoder projections of the argument arrays, which the first call reads as launched. So the run of @main ends with
  main_v1 holding the joint network's value of the three argument arrays.
-/
import proofs.«182079_j23338852286935_1_alg».proof.Proof.KernelRun
import proofs.«182079_j23338852286935_1_alg».proof.Proof.EncRegion
import proofs.«182079_j23338852286935_1_alg».proof.Proof.DecRegion
import proofs.«182079_j23338852286935_1_alg».proof.Proof.SumRegion

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The contents of main_v1 at the last segment boundary: the second call's write-backs over what the first call's
    write-backs left, read through each call's whole-array value. -/
theorem result_array (c : Dev nD) :
    W2 (F := Ideal) m ρ c (Proc.devRef .tc main_v1)
      = Cert.Joint.joint (m ((c.tc : Thread nD τ).loc main_arg0)) (m ((c.tc : Thread nD τ).loc main_arg1))
          (m ((c.tc : Thread nD τ).loc main_arg2)) :=
  (W2_arr m ρ c 2).trans ((SumRegion.sum_array (V1 m ρ) c).trans
    (congrArg₂ Cert.Joint.gridAdd ((W1_arr m ρ c 3).trans (EncRegion.enc_array (V0 m ρ) c))
      ((W1_arr m ρ c 4).trans (DecRegion.dec_array (V0 m ρ) c))))

/-- Every weakly fair execution of the idealized kernel's @main terminates with main_v1 at the joint network's value of
    the argument arrays and the arguments unchanged. -/
theorem run : θ_run defs (onTc (τ := τ) (main (F := Ideal))) ⟨m, fun _ => 0, ρ⟩ (fun r => ∀ c : Dev nD,
      r.2.mem ((c.tc : Thread nD τ).loc main_v1)
        = Cert.Joint.joint (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_array m ρ c), (h c).2⟩) (GenRun.run_named m ρ)

end Cert.KernelIdeal.KernelValue

end
-- ==== Proof.RefJoint.lean ====
/-
  The reference computes the joint network's value. Read one operation at a time, its result at (b, t, u, v) is
  the contraction over k of gelu of the encoder states at (b, t, k) with the weight at (v, k), plus the
  contraction over k of gelu of the decoder states at (b, u, k) with the weight at (v, 512 + k); its cube is
  spelt (z · z) · z where the specification has z · (z · z), equal by commutativity of the product.
-/
import proofs.«182079_j23338852286935_1_alg».proof.Proof.Gen.ReferenceIdeal.Read
import proofs.«182079_j23338852286935_1_alg».proof.Proof.JointSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-! ## The pointwise chain is gelu -/

/-- The reference's spelling of gelu, with the cube associated to the left, is the specification's:
    (z · z) · z = z · (z · z) in the commutative monoid of extended reals under the product. -/
theorem gelu_left_cube (z : EReal) :
    z * (Ideal.ofBits .f32 0x3F000000#32 * (Ideal.ofBits .f32 0x3F800000#32
      + Ideal.tanh (Ideal.ofBits .f32 0x3F4C422A#32 * (z + Ideal.ofBits .f32 0x3D372713#32 * (z * z * z)))))
      = Cert.Joint.gelu z := by
  unfold Cert.Joint.gelu
  rw [mul_comm (z * z) z]

/-- The twelve pointwise operations on the encoder states compute gelu of the state, entry by entry. -/
theorem gelu_enc (x0 : (⟨S4x256x512, .f32⟩ : BufTy).Contents (Elt Ideal)) (j : S4x256x512.Idx) :
    val_main_v12 (F := Ideal) x0 j = Cert.Joint.gelu (x0 j) := by
  rw [val_main_v12_apply, val_main_v11_apply, val_main_v10_apply, val_main_cst_2_apply, val_main_v9_apply,
    val_main_v8_apply, val_main_cst_1_apply, val_main_v7_apply, val_main_v6_apply, val_main_v5_apply,
    val_main_cst_0_apply, val_main_v4_apply, val_main_v3_apply, val_main_v2_apply, val_main_cst_apply,
    val_main_v1_apply, val_main_v0_apply]
  exact gelu_left_cube (x0 j)

/-- The same twelve operations on the decoder states. -/
theorem gelu_dec (x1 : (⟨S4x65x512, .f32⟩ : BufTy).Contents (Elt Ideal)) (j : S4x65x512.Idx) :
    val_main_v25 (F := Ideal) x1 j = Cert.Joint.gelu (x1 j) := by
  rw [val_main_v25_apply, val_main_v24_apply, val_main_v23_apply, val_main_cst_6_apply, val_main_v22_apply,
    val_main_v21_apply, val_main_cst_5_apply, val_main_v20_apply, val_main_v19_apply, val_main_v18_apply,
    val_main_cst_4_apply, val_main_v17_apply, val_main_v16_apply, val_main_v15_apply, val_main_cst_3_apply,
    val_main_v14_apply, val_main_v13_apply]
  exact gelu_left_cube (x1 j)

/-! ## Where each contraction reads its operands -/

/-- The encoder contraction at (b, t, v) reads the states at (b, t, k), -/
theorem enc_lhs_idx (b : Fin 4) (t : Fin 256) (v : Fin 1024) (k : Fin 512) :
    lidx_main_v27 (ix3 b t v) k = ix3 b t k :=
  funext fun a => Fin.ext (by match a with | ⟨0, _⟩ => rfl | ⟨1, _⟩ => rfl | ⟨2, _⟩ => rfl)

/-- and, through the slice of the left 512 columns, the weight at (v, k). -/
theorem enc_rhs_idx (b : Fin 4) (t : Fin 256) (v : Fin 1024) (k : Fin 512) :
    idx_main_v26 (ridx_main_v27 (ix3 b t v) k) = ix2 v (Cert.Joint.colL k) :=
  funext fun a => Fin.ext (by match a with | ⟨0, _⟩ => rfl | ⟨1, _⟩ => rfl)

/-- The decoder contraction at (b, u, v) reads the states at (b, u, k), -/
theorem dec_lhs_idx (b : Fin 4) (u : Fin 65) (v : Fin 1024) (k : Fin 512) :
    lidx_main_v29 (ix3 b u v) k = ix3 b u k :=
  funext fun a => Fin.ext (by match a with | ⟨0, _⟩ => rfl | ⟨1, _⟩ => rfl | ⟨2, _⟩ => rfl)

/-- and, through the slice of the right 512 columns, the weight at (v, 512 + k). -/
theorem dec_rhs_idx (b : Fin 4) (u : Fin 65) (v : Fin 1024) (k : Fin 512) :
    idx_main_v28 (ridx_main_v29 (ix3 b u v) k) = ix2 v (Cert.Joint.colR k) :=
  funext fun a => Fin.ext (by match a with | ⟨0, _⟩ => rfl | ⟨1, _⟩ => rfl)

/-- The two broadcasts of the encoder projection, [4,256,1024] → [4,256,1,1024] → [4,256,65,1024], read it at (b, t, v). -/
theorem enc_bcast_idx (b : Fin 4) (t : Fin 256) (u : Fin 65) (v : Fin 1024) :
    idx_main_v30 (idx_main_v32 (ix4 b t u v)) = ix3 b t v :=
  funext fun a => Fin.ext (by match a with | ⟨0, _⟩ => rfl | ⟨1, _⟩ => rfl | ⟨2, _⟩ => rfl)

/-- The two broadcasts of the decoder projection, [4,65,1024] → [4,1,65,1024] → [4,256,65,1024], read it at (b, u, v). -/
theorem dec_bcast_idx (b : Fin 4) (t : Fin 256) (u : Fin 65) (v : Fin 1024) :
    idx_main_v31 (idx_main_v33 (ix4 b t u v)) = ix3 b u v :=
  funext fun a => Fin.ext (by match a with | ⟨0, _⟩ => rfl | ⟨1, _⟩ => rfl | ⟨2, _⟩ => rfl)

/-! ## The two projections -/

/-- The first contraction is the encoder projection. -/
theorem enc_stage (x0 : (⟨S4x256x512, .f32⟩ : BufTy).Contents (Elt Ideal)) (x2 : (⟨S1024x1024, .f32⟩ : BufTy).Contents (Elt Ideal))
    (b : Fin 4) (t : Fin 256) (v : Fin 1024) :
    val_main_v27 (F := Ideal) x0 x2 (ix3 b t v) = Cert.Joint.encAt x0 x2 b t v := by
  rw [val_main_v27_apply]
  unfold Cert.Joint.encAt
  refine Finset.sum_congr rfl fun k _ => ?_
  rw [val_main_v26_apply, enc_lhs_idx, enc_rhs_idx, gelu_enc]

/-- The second contraction is the decoder projection. -/
theorem dec_stage (x1 : (⟨S4x65x512, .f32⟩ : BufTy).Contents (Elt Ideal)) (x2 : (⟨S1024x1024, .f32⟩ : BufTy).Contents (Elt Ideal))
    (b : Fin 4) (u : Fin 65) (v : Fin 1024) :
    val_main_v29 (F := Ideal) x1 x2 (ix3 b u v) = Cert.Joint.decAt x1 x2 b u v := by
  rw [val_main_v29_apply]
  unfold Cert.Joint.decAt
  refine Finset.sum_congr rfl fun k _ => ?_
  rw [val_main_v28_apply, dec_lhs_idx, dec_rhs_idx, gelu_dec]

/-! ## The sum over the grid -/

/-- The reference's last stage, at the ideal instance, is the joint network's value of its three arguments. -/
theorem ref_is_joint (x0 : (⟨S4x256x512, .f32⟩ : BufTy).Contents (Elt Ideal)) (x1 : (⟨S4x65x512, .f32⟩ : BufTy).Contents (Elt Ideal))
    (x2 : (⟨S1024x1024, .f32⟩ : BufTy).Contents (Elt Ideal)) :
    val_main_v34 (F := Ideal) x0 x1 x2 = Cert.Joint.joint x0 x1 x2 := by
  funext i
  obtain ⟨b, t, u, v, rfl⟩ : ∃ (b : Fin 4) (t : Fin 256) (u : Fin 65) (v : Fin 1024), i = ix4 b t u v :=
    ⟨i 0, i 1, i 2, i 3, eq_ix4 i⟩
  rw [val_main_v34_apply, val_main_v32_apply, val_main_v30_apply, val_main_v33_apply, val_main_v31_apply,
    enc_bcast_idx, dec_bcast_idx, enc_stage, dec_stage, Cert.Joint.joint_apply]
  rfl

end Cert.ReferenceIdeal.RefValue

end
-- ==== Proof.lean ====
/-
  The certificate of the joint network kernel against its reference.

  Both programs compute, at (b, t, u, v), Σ_k gelu (x b t k) · w v k + Σ_k gelu (y b u k) · w v (512 + k) over the
  extended reals (Proof/JointSpec.lean). The kernel does it in two pallas_calls: the first, over the four batches,
  leaves the two projections (Proof/EncRegion.lean, Proof/DecRegion.lean: gelu pointwise, the operands' change of float
  format the identity, a product into a zero accumulator a plain sum over the contracted axis); the second, over the
  grid of batches and row tiles, adds them over the (t, u) grid (Proof/SumRegion.lean); Proof/KernelValue.lean composes
  the three along the run of @main (Proof/KernelRun.lean). The reference does it in 43 host operations read one at a
  time (Proof/RefJoint.lean); its cube is spelt (z · z) · z where the kernel has z · (z · z), equal by commutativity, and
  no other law is used: the precondition is never opened. The three frames are the generated ones (the reference's its
  run with the result dropped); the idealization rewrote nothing, so `preserves` is trivial.
-/
import proofs.«182079_j23338852286935_1_alg».proof.Defs
import proofs.«182079_j23338852286935_1_alg».proof.Proof.Gen.Kernel
import proofs.«182079_j23338852286935_1_alg».proof.Proof.Gen.Kernel.Skeleton
import proofs.«182079_j23338852286935_1_alg».proof.Proof.Gen.Kernel.Launch
import proofs.«182079_j23338852286935_1_alg».proof.Proof.Gen.Kernel.Points
import proofs.«182079_j23338852286935_1_alg».proof.Proof.Gen.Kernel.Frame
import proofs.«182079_j23338852286935_1_alg».proof.Proof.Gen.KernelIdeal
import proofs.«182079_j23338852286935_1_alg».proof.Proof.Gen.KernelIdeal.Skeleton
import proofs.«182079_j23338852286935_1_alg».proof.Proof.Gen.KernelIdeal.Launch
import proofs.«182079_j23338852286935_1_alg».proof.Proof.Gen.KernelIdeal.Points
import proofs.«182079_j23338852286935_1_alg».proof.Proof.Gen.KernelIdeal.Frame
import proofs.«182079_j23338852286935_1_alg».proof.Proof.Gen.ReferenceIdeal
import proofs.«182079_j23338852286935_1_alg».proof.Proof.Gen.ReferenceIdeal.Run
import proofs.«182079_j23338852286935_1_alg».proof.Proof.Gen.ReferenceIdeal.Read
import proofs.«182079_j23338852286935_1_alg».proof.Proof.Gen.Pre_finite_inputs
import proofs.«182079_j23338852286935_1_alg».proof.Proof.KernelValue
import proofs.«182079_j23338852286935_1_alg».proof.Proof.RefJoint
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both runs end, the kernel's result and the reference's both at
    the joint network's value of the arguments. -/
theorem algebraic : Cert.algebraic_KernelIdeal_ReferenceIdeal := by
  intro m ρ m' ρ' _ hagree
  refine ⟨fun c => Cert.Joint.joint (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_is_joint,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
